-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_c_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S100000x3 : Shape := ⟨2, ![100000, 3]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_

variable [Facts]

def fn {F : FTy → Type} [FloatOps F] (main_arg0 : FVec F S8192x256 .f32) (main_arg1 : IVec S100000x3 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 32 := constantI S_ 32 0#32
  let main_v4 : IVec S100000x3 32 := broadcastInDim S100000x3 ![] bcast_S_S100000x3 main_c_0
  let main_v5 : IVec S100000x3 1 := cmpi .sge main_arg1 main_v4
  let main_c_1 : IVec S_ 1 := constantI S_ 1 1#1
  let main_v6 : IVec S_ 1 := (fun x v => Host.reduce IntOp.andi x v reducesTo_S100000x3_S_d0_1 h_S_) main_v5 main_c_1
  let main_v7 : IVec S_ 1 := andi main_v3 main_v6
  let main_c_2 : IVec S_ 32 := constantI S_ 32 8192#32
  let main_v8 : IVec S100000x3 32 := broadcastInDim S100000x3 ![] bcast_S_S100000x3 main_c_2
  let main_v9 : IVec S100000x3 1 := cmpi .slt main_arg1 main_v8
  let main_c_3 : IVec S_ 1 := constantI S_ 1 1#1
  let main_v10 : IVec S_ 1 := (fun x v => Host.reduce IntOp.andi x v reducesTo_S100000x3_S_d0_1 h_S_) main_v9 main_c_3
  let main_v11 : IVec S_ 1 := andi main_v7 main_v10
  main_v11
-- ==== Kernel.lean ====
abbrev S8192x256 : Shape := ⟨2, ![8192, 256]⟩
abbrev S100000x3 : Shape := ⟨2, ![100000, 3]⟩
abbrev S2x50000x3 : Shape := ⟨3, ![2, 50000, 3]⟩
abbrev S2x1x1 : Shape := ⟨3, ![2, 1, 1]⟩
abbrev S1x400x3 : Shape := ⟨3, ![1, 400, 3]⟩
abbrev S1x1x1 : Shape := ⟨3, ![1, 1, 1]⟩
abbrev S1x1 : Shape := ⟨2, ![1, 1]⟩
abbrev S400x3 : Shape := ⟨2, ![400, 3]⟩
abbrev S400x1 : Shape := ⟨2, ![400, 1]⟩
abbrev S400 : Shape := ⟨1, ![400]⟩
abbrev S400x8192 : Shape := ⟨2, ![400, 8192]⟩
abbrev S400x256 : Shape := ⟨2, ![400, 256]⟩
abbrev S1x400 : Shape := ⟨2, ![1, 400]⟩
abbrev S1 : Shape := ⟨1, ![1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S100000x3, .i32⟩
  | .hbm, ⟨2, _⟩ => ⟨S8192x256, .bf16⟩
  | .hbm, ⟨3, _⟩ => ⟨S2x50000x3, .i32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .local _ .vmem, ⟨0, _⟩ => ⟨S1x400x3, .i32⟩
  | .local _ .vmem, ⟨1, _⟩ => ⟨S1x400x3, .i32⟩
  | .local _ .vmem, ⟨2, _⟩ => ⟨S8192x256, .bf16⟩
  | .local _ .vmem, ⟨3, _⟩ => ⟨S1x1x1, .f32⟩
  | .local _ .vmem, ⟨4, _⟩ => ⟨S1x1x1, .f32⟩
  | .local _ .vmem, ⟨5, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_c : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v65 : BitVec 1 := Scalar.cmpi .eq arg1 c124_i32
  let v66 : BitVec 32 := Scalar.extui v65
  let c0_i32_17 : BitVec 32 := 0#32
  let v67 : BitVec 1 := Scalar.cmpi .ne v66 c0_i32_17
  v67

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x400x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  shapeCasts_S100000x3_S2x50000x3 : S100000x3.ShapeCasts S2x50000x3
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x400x3_S1x400x3_0_0_0 : ∀ a, (![0, 0, 0] : Fin 3 → Nat) a + S1x400x3.size a ≤ S1x400x3.size a
  h_S1x400x3 : 0 < S1x400x3.numel
  shapeCasts_S1x400x3_S400x3 : S1x400x3.ShapeCasts S400x3
  slices_S400x3_o0_0_S400x1 : S400x3.Slices ![0, 0] S400x1
  shapeCasts_S400x1_S400 : S400x1.ShapeCasts S400
  slices_S400x3_o0_1_S400x1 : S400x3.Slices ![0, 1] S400x1
  slices_S400x3_o0_2_S400x1 : S400x3.Slices ![0, 2] S400x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  iota_S400x8192_d1_w32 : S400x8192.Iotas .tc 32 [1]
  shapeCasts_S400_S400x1 : S400.ShapeCasts S400x1
  broadcasts_S400x1_S400x8192 : S400x1.Broadcasts S400x8192
  natLt_1_32 : 1 < 32
  reduces_S400x256_S400 : S400x256.Reduces [1] S400
  shapeCasts_S400_S1x400 : S400.ShapeCasts S1x400
  reduces_S1x400_S1 : S1x400.Reduces [1] S1
  shapeCasts_S1_S1x1 : S1.ShapeCasts S1x1
  inpos_S1x1_p0_0 : ∀ a, (![0, 0] : Fin 2 → Nat) a < S1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S400x8192_S8192x256_S400x256_1_0_0_1_n_n_wf : DotDims.WF S400x8192 S8192x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x3.size a ≤ S2x50000x3.size a
  hwx0_0 : ∀ i : grid0.Coords, EltTy.bits .i32 = 32 ∨ (Rect.block (s := S2x50000x3) S1x400x3.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def dot_S400x8192_S8192x256_S400x256_1_0_0_1_n_n : DotDims S400x8192 S8192x256 S400x256 where
  lhsContracting := [1]
  rhsContracting := [0]
  lhsNonContracting := [0]
  rhsNonContracting := [1]
  lhsBatch := []
  rhsBatch := []
  wf := dot_S400x8192_S8192x256_S400x256_1_0_0_1_n_n_wf

abbrev win0_0 : Pipeline.Window sig grid0 :=
  Pipeline.Window.ofSpec (Memref.whole main_v1) S1x400x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S100000x3 : Shape := ⟨2, ![100000, 3]⟩
abbrev S100000x1 : Shape := ⟨2, ![100000, 1]⟩
abbrev S100000 : Shape := ⟨1, ![100000]⟩
abbrev S_ : Shape := ⟨0, ![]⟩
abbrev S100000x256 : Shape := ⟨2, ![100000, 256]⟩

abbrev nBuf : Space → Nat
  | .hbm => 63
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S100000x3, .i32⟩
  | .hbm, ⟨2, _⟩ => ⟨S100000x1, .i32⟩
  | .hbm, ⟨3, _⟩ => ⟨S100000, .i32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S100000x256, .f32⟩
  | .hbm, ⟨13, _⟩ => ⟨S100000x1, .i32⟩
  | .hbm, ⟨14, _⟩ => ⟨S100000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x256, .f32⟩
  | .hbm, ⟨24, _⟩ => ⟨S100000x1, .i32⟩
  | .hbm, ⟨25, _⟩ => ⟨S100000, .i32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x256, .f32⟩
  | .hbm, ⟨41, _⟩ => ⟨S100000x256, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x256, .f32⟩
  | .hbm, ⟨46, _⟩ => ⟨S100000x256, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_call0_cst : Ref sig .tc := ⟨.hbm, 55, rfl⟩
abbrev main_call0_v0 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_c_10 : Ref sig .tc := ⟨.hbm, 62, rfl⟩

abbrev nD : Nat := 1
abbrev τ : Topo := Topo.v7x

variable {F : FTy → Type} [FloatOps F]

class Facts₀ : Prop where
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x3_S100000x1_0_1 : S100000x3.Slices ![0, 1] S100000x1
  slices_S100000x3_S100000x1_0_2 : S100000x3.Slices ![0, 2] S100000x1
  reducesTo_S100000x256_S100000_d1 : S100000x256.ReducesTo [1] S100000
  h_S_ : 0 < S_.numel
  reducesTo_S100000_S_d0 : S100000.ReducesTo [0] S_
  gather_S8192x256_S100000x1_S100000x256_1_0_n_n_0_1_1256_wf : GatherDims.WF S8192x256 S100000x1 S100000x256 [1] [0] [] [0] [] 1 ![1, 256]

variable [Facts₀]

def gather_S8192x256_S100000x1_S100000x256_1_0_n_n_0_1_1256 : GatherDims S8192x256 S100000x1 S100000x256 where
  offsetDims := [1]
  collapsedSliceDims := [0]
  operandBatchingDims := []
  startIndicesBatchingDims := []
  startIndexMap := [0]
  indexVectorDim := 1
  sliceSizes := ![1, 256]
  wf := gather_S8192x256_S100000x1_S100000x256_1_0_n_n_0_1_1256_wf

class Facts : Prop extends Facts₀ where

variable [Facts]
-- ==== Proof.KernelRun.lean ====
/-
  The kernel's run, read back as values, at any float instance.

  The grid has 250 points: two halves of 125 chunks of 400 triplets. A scratch cell carries the running sum of a half:
  it is reset at the half's first chunk, each chunk adds the sum of its 400 losses, and at the half's last chunk the
  cell is copied to the half's entry of the [2, 1, 1] output array. This module names the cell's contents after each
  point (by recursion on the point), shows that the output array ends holding the two halves' last contents, and
  applies the host operations that follow the kernel (the sum of the two entries from the zero word, then the division
  by the word 100000.0) to it.
-/
import proofs.«427542_j29171417874648_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Run

open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves behind

The body has three cases: at the first chunk of a half (A) the accumulator is reset to zero and then the chunk's sum
is added; at a middle chunk (B) the chunk's sum is added to what the chunk before left; at the last chunk (C) the same,
and the accumulator is copied to the output block. -/

/-- The chunk's update of an accumulator `acc`: `acc` plus the sum of the chunk's 400 losses, as the body's
    arithmetic of the triplet block `x0` and the table `x1`. -/
abbrev step (x0 : Vec F S1x400x3 .i32) (x1 : Vec F S8192x256 .bf16) (acc : Vec F S1x1 .f32) : Vec F S1x1 .f32 :=
  k0_pay1 (k0_pay7 x0 x1) (k0_pay8 x0 x1) (k0_pay9 x0 x1) (k0_pay10 x0 x1) acc

theorem sout_A (c : Dev nD) (i : grid0.Coords) (arg2 : Memref sig .tc .vmem S1x400x3 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S1x400x3 .i32) (x1 : Vec F S8192x256 .bf16) :
    sout0_A_0 c i arg2 harg2 arg3 harg3 arg4 harg4 arg5 harg5 hc0 hc1 x0 x1 = step x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg5.read_unread, View.ld_unit_zero (S := S1x400x3) hz3, View.ld_unit_zero (S := S8192x256) hz2, View.ld_unit_zero (S := S1x1) hz2, View.readCov_unit_zero (S := S1x1) _ hz2]

theorem sout_B (c : Dev nD) (i : grid0.Coords) (arg2 : Memref sig .tc .vmem S1x400x3 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S1x400x3 .i32) (x1 : Vec F S8192x256 .bf16) (xs0 : Vec F S1x1 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x400x3) hz3, View.ld_unit_zero (S := S8192x256) hz2, View.ld_unit_zero (S := S1x1) hz2, View.readCov_unit_zero (S := S1x1) _ hz2]

theorem sout_C (c : Dev nD) (i : grid0.Coords) (arg2 : Memref sig .tc .vmem S1x400x3 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1x400x3 .i32) (x1 : Vec F S8192x256 .bf16) (xs0 : Vec F S1x1 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x400x3) hz3, View.ld_unit_zero (S := S8192x256) hz2, View.ld_unit_zero (S := S1x1) hz2, View.readCov_unit_zero (S := S1x1) _ hz2]

theorem out_C (c : Dev nD) (i : grid0.Coords) (arg2 : Memref sig .tc .vmem S1x400x3 .i32) (harg2 : arg2.IsWhole) (arg3 : Memref sig .tc .vmem S8192x256 .bf16) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1x400x3 .i32) (x1 : Vec F S8192x256 .bf16) (xs0 : Vec F S1x1 .f32) :
    out0_C_2 c i arg2 harg2 arg3 harg3 arg4 harg4 arg5 harg5 hc0 hc1 x0 x1 xs0 = k0_pay2 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.ld_unit_zero (S := S1x400x3) hz3, View.ld_unit_zero (S := S8192x256) hz2, View.ld_unit_zero (S := S1x1) hz2, View.readCov_unit_zero (S := S1x1) _ hz2]

/-! ## The accumulator, point by point -/

/-- The zero block the reset stores. -/
abbrev zeroAcc : Vec F S1x1 .f32 := k0_pay3 (F := F)

/-- The accumulator after the body at position `n` of the grid's 250 points (half `n / 125`, chunk `n % 125`): at a
    half's first chunk the chunk's update of the zero block, elsewhere the chunk's update of what the point before
    left. -/
def accAt (c : Dev nD) : (n : ℕ) → n < cfg0.N → Vec F S1x1 .f32
  | 0, h => step (iblk m c 0 ⟨0, h⟩) (iblk m c 1 ⟨0, h⟩) zeroAcc
  | n + 1, h =>
    if (n + 1) % 125 = 0 then step (iblk m c 0 ⟨n + 1, h⟩) (iblk m c 1 ⟨n + 1, h⟩) zeroAcc
    else step (iblk m c 0 ⟨n + 1, h⟩) (iblk m c 1 ⟨n + 1, h⟩) (accAt c n (Nat.lt_of_succ_lt h))

theorem accAt_congr (c : Dev nD) {n n' : ℕ} (e : n = n') (h : n < cfg0.N) (h' : n' < cfg0.N) :
    accAt m c n h = accAt m c n' h' := by subst e; rfl

/-- What the carried scratch holds after each point is that accumulator: by induction on the point, the case at each
    point read off its position in its half. -/
theorem outsAt_snd (c : Dev nD) : ∀ (n : ℕ) (h : n < cfg0.N), (outsAt0 m c n h).2 = accAt m c n h
  | 0, h => by
    rw [outsAt0_A m c ⟨0, h⟩ rfl (by show ¬(0 : ℕ) % 125 = 124; decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 250 := N_0
    by_cases h0 : (n + 1) % 125 = 0
    · have h1 : ¬(n + 1) % 125 = 124 := by omega
      rw [outsAt0_A m c ⟨n + 1, h⟩ h0 h1]
      dsimp only
      rw [accAt, if_pos h0]
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
    · by_cases h1 : (n + 1) % 125 = 124
      · rw [outsAt0_C m c ⟨n + 1, h⟩ h0 h1]
        dsimp only
        rw [accAt, if_neg h0]
        refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
        exact congrArg (step (iblk m c 0 ⟨n + 1, h⟩) (iblk m c 1 ⟨n + 1, h⟩)) (outsAt_snd c n (Nat.lt_of_succ_lt h))
      · rw [outsAt0_B m c ⟨n + 1, h⟩ h0 h1]
        dsimp only
        rw [accAt, if_neg h0]
        refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
        exact congrArg (step (iblk m c 0 ⟨n + 1, h⟩) (iblk m c 1 ⟨n + 1, h⟩)) (outsAt_snd c n (Nat.lt_of_succ_lt h))

/-- At a half's last chunk the output block is left holding the accumulator. -/
theorem outsAt_fst (c : Dev nD) (t : Fin cfg0.N) (h1 : t.val % 125 = 124) :
    (outsAt0 m c t.val t.isLt).1 = k0_pay2 (accAt m c t.val t.isLt) := by
  have h0 : ¬t.val % 125 = 0 := by omega
  have e := outsAt_snd m c t.val t.isLt
  rw [outsAt0_C m c t h0 h1] at e ⊢
  dsimp only at e ⊢
  rw [out_C, ← e, sout_C]

/-! ## The output array after the run -/

/-- The output array after the run: entry (h, 0, 0) holds the accumulator after the last chunk of half `h`. -/
def outArr (c : Dev nD) : S2x1x1.Idx → Elt F .f32 := fun i =>
  k0_pay2 (accAt m c ((i 0).val * 125 + 124) (by have h2 : (i 0).val < 2 := (i 0).isLt; rw [show cfg0.N = 250 from N_0]; omega))
    (ValueIdx.ix3 (0 : Fin 1) (0 : Fin 1) (0 : Fin 1))

theorem idx_fact2 : ∀ t : Fin cfg0.N, win0_2.index t (0 : Fin 3) = t.val / 125 ∧ win0_2.index t (1 : Fin 3) = 0 ∧ win0_2.index t (2 : Fin 3) = 0 :=
  (by decide +kernel : ∀ t : Fin grid0.N, _)

theorem flushed2_eq (c : Dev nD) (t : Fin cfg0.N) (hf : (cfg0.win 2).flush t = true) :
    (dats m 0 c).flushed 2 t = ((cfg0.win 2).blk t).view.read (Elt F) (outArr m c) := by
  have h1 : t.val % 125 = 124 := (flush0_2 t).mp hf
  show (cfg0.win 2).cut (grid0.coords t) ((dats m 0 c).after 2 t) = _
  rw [after0_2, outsAt_fst m c t h1]
  funext j
  show k0_pay2 (accAt m c t.val t.isLt) j = outArr m c (((cfg0.win 2).blk t).view.emb j)
  obtain ⟨e0, e1, e2⟩ := idx_fact2 t
  have hj : j = ValueIdx.ix3 (0 : Fin 1) (0 : Fin 1) (0 : Fin 1) := by
    funext a; apply Fin.ext
    match a with
    | ⟨0, _⟩ => have := (j 0).isLt; show (j 0).val = 0; change (j 0).val < 1 at this; omega
    | ⟨1, _⟩ => have := (j 1).isLt; show (j 1).val = 0; change (j 1).val < 1 at this; omega
    | ⟨2, _⟩ => have := (j 2).isLt; show (j 2).val = 0; change (j 2).val < 1 at this; omega
  subst hj
  have hemb : ((((cfg0.win 2).blk t).view.emb (ValueIdx.ix3 (0 : Fin 1) (0 : Fin 1) (0 : Fin 1))) 0).val = t.val / 125 := by
    show win0_2.index t (0 : Fin 3) * 1 + 1 * 0 = _
    rw [e0]; omega
  unfold outArr
  refine congrFun (congrArg k0_pay2 (accAt_congr m c ?_ _ _)) _
  rw [hemb]; omega

/-- An index of the output array is in point `t`'s block iff each coordinate is in the block's range on its axis. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2).slice (win0_2.rect t)).set ↔ _
  rw [View.set_slice_whole, Rect.mem_set_unit]
  exact Iff.rfl

/-- Every entry (h, 0, 0) of the output array is written back at the last chunk of half `h`. -/
theorem cover2 (i : S2x1x1.Idx) : ∃ t : Fin cfg0.N, (cfg0.win 2).flush t = true ∧ i ∈ ((cfg0.win 2).blk t).view.set := by
  have hN : cfg0.N = 250 := N_0
  have h0 : (i 0).val < 2 := (i 0).isLt
  have h1 : (i 1).val < 1 := (i 1).isLt
  have h2 : (i 2).val < 1 := (i 2).isLt
  refine ⟨⟨(i 0).val * 125 + 124, by omega⟩, (flush0_2 _).mpr (by dsimp only; omega), ?_⟩
  rw [mem_blk2]
  obtain ⟨e0, e1, e2⟩ := idx_fact2 ⟨(i 0).val * 125 + 124, by omega⟩
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

/-- So the output array ends holding the two halves' accumulators. -/
theorem final2 (c : Dev nD) : (dats m 0 c).arrAt 2 cfg0.N = outArr m c :=
  (dats m 0 c).arrAt_eq_of_cover 2 (outArr m c) (flushed2_eq m c) cover2

/-- The host operations after the kernel, as one function of the output array: the sum of its entries from the zero
    word, divided by the word 100000.0. -/
def tail (o : S2x1x1.Idx → Elt F .f32) : S_.Idx → Elt F .f32 :=
  Host.divf (Host.reduceAdd o (constant (F := F) S_ .f32 0x00000000#32) reducesTo_S2x1x1_S_d0_1_2 h_S_) (constant (F := F) S_ .f32 0x47C35000#32)

theorem tail_v4 (c : Dev nD) :
    Pipeline.afterTail₀ cfgs (dats m) 0 (V0 m) [hostOps1] c main_v4 = tail (outArr m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2) = outArr m c :=
    (Pipeline.withArrays_arr spec0 launch0.win.arr_inj c _ _ 2).trans (final2 m c)
  rw [e]
  rfl

theorem tail_c (c : Dev nD) :
    Pipeline.afterTail₀ cfgs (dats m) 0 (V0 m) [hostOps1] c main_c = constantI S_ 32 100000#32 := by
  unfold Pipeline.afterTail₀
  show StableHlo.after hostOps1 _ (Proc.devRef .tc main_c) = _
  after_results

/-- The run, read: the first result at the tail's function of the output array, the second at the word 100000, the
    arguments unchanged. -/
theorem run : θ_run defs (onTc (τ := τ) (main (F := F))) ⟨m, fun _ => 0, ρ⟩ fun r => ∀ c : Dev nD,
      r.2.mem ((c.tc : Thread nD τ).loc main_v4) = tail (outArr m c)
      ∧ r.2.mem ((c.tc : Thread nD τ).loc main_c) = constantI S_ 32 100000#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_v4 m c),
     ((h c).2 main_c (Pipeline.mem_restRefs_of main_c (by decide) (by decide))).trans (tail_c m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run
end
-- ==== Proof.Spec.lean ====
/-
  The mathematics of the mean triplet loss, free of either program.

  A table E of 8192 rows of 256 extended reals and 100000 triplets (anchor, positive, negative) of row numbers, each
  stored as a 32-bit word. A word names the row whose number is the word read as a signed integer (kept inside the
  table). For two rows x, y the distance is d(x, y) = sqrt (sum over k of (x k - y k)^2); a triplet's loss is
  max (d(a, p) - min (d(a, n), d(p, n)) + 1, 0); the result is (0 + the sum of the 100000 losses) / 100000.
-/
import Idealize.ShloMosaic.PureOps.Ideal
import Idealize.ShloMosaic.Lib.ValueIdx

noncomputable section

open scoped BigOperators

namespace Cert.Triplet

open Idealize.ShloMosaic Idealize.ShloMosaic.ValueIdx

/-- The Euclidean distance between two rows of 256 entries. -/
def rowDist (x y : Fin 256 → EReal) : EReal :=
  Ideal.sqrt (∑ k : Fin 256, (x k - y k) * (x k - y k))

/-- A triplet's hinge loss with margin one: max (d(a, p) - min (d(a, n), d(p, n)) + 1, 0); the one and the zero are
    the f32 words both programs carry. -/
def hinge (a p n : Fin 256 → EReal) : EReal :=
  max (rowDist a p - min (rowDist a n) (rowDist p n) + Ideal.ofBits .f32 0x3F800000#32) (Ideal.ofBits .f32 0x00000000#32)

/-- The row of the table that a 32-bit word names: the word as a signed integer, kept inside the table. -/
def rowOf (E : (⟨2, ![8192, 256]⟩ : Shape).Idx → EReal) (w : BitVec 32) : Fin 256 → EReal :=
  fun k => E (ix2 (⟨min w.toInt.toNat (8192 - 1), by omega⟩ : Fin 8192) k)

/-- The loss of triplet number n (zero past the last triplet, so that n ranges over the naturals). -/
def lossAt (E : (⟨2, ![8192, 256]⟩ : Shape).Idx → EReal) (T : (⟨2, ![100000, 3]⟩ : Shape).Idx → BitVec 32) (n : ℕ) : EReal :=
  if h : n < 100000 then
    hinge (rowOf E (T (ix2 (⟨n, h⟩ : Fin 100000) (0 : Fin 3)))) (rowOf E (T (ix2 (⟨n, h⟩ : Fin 100000) (1 : Fin 3))))
      (rowOf E (T (ix2 (⟨n, h⟩ : Fin 100000) (2 : Fin 3))))
  else 0

/-- The mean loss as both programs form it: the zero word plus the sum of all losses, divided by the word 100000.0. -/
def meanLoss (E : (⟨2, ![8192, 256]⟩ : Shape).Idx → EReal) (T : (⟨2, ![100000, 3]⟩ : Shape).Idx → BitVec 32) : EReal :=
  Ideal.div (Ideal.ofBits .f32 0x00000000#32 + ∑ t : Fin 100000, lossAt E T t.val) (Ideal.ofBits .f32 0x47C35000#32)

end Cert.Triplet

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.KernelPayload.lean ====
/-
  The arithmetic of the kernel's body, read at its one index.

  For a chunk of 400 triplets the body forms, per triplet r and column j in {0, 1, 2}, the row of the table named by
  the word T (r, j): a one-hot row e(r, ·) with e(r, q) = 1 when q is the word's number and 0 otherwise, multiplied
  into the table, gives  sum over q of e(r, q) * E (q, k) = E (word, k).  From the three rows a, p, n it takes the
  distances d(a, p), d(a, n), d(p, n), the hinge  max (d(a, p) - min (d(a, n), d(p, n)) + 1, 0),  sums the 400 hinges
  and adds the sum to the running cell.
-/
import proofs.«427542_j29171417874648_1_alg».proof.Proof.Gen.KernelIdeal.Skeleton
import proofs.«427542_j29171417874648_1_alg».proof.Proof.Spec
import proofs.«427542_j29171417874648_1_alg».proof.Proof.LibRowProducts
import proofs.«427542_j29171417874648_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Idealize.SL.Sem
open Cert.KernelIdeal Cert.KernelIdeal.Gen Cert.Triplet

/-- The column j of the chunk's triplets as a vector of 400 words: at r it is the word T (0, r, j). -/
theorem col_apply (x0 : Vec Ideal S1x400x3 .i32) (j : Fin 3) (h : S400x3.Slices ![0, j.val] S400x1)
    (h' : S400x1.ShapeCasts S400) (r : Fin 400) :
    shapeCast S400 (extractStridedSlice S400x1 ![0, j.val] (k0_pay4 (F := Ideal) x0) h) h' (ix1 r)
      = x0 (ix3 (0 : Fin 1) r j) := by
  refine (shapeCast_apply _ _ (ix1 r) (ix2 r (0 : Fin 1)) ?_).trans ?_
  · rw [Shape.rowMajor_val_one, Shape.rowMajor_val_two]
    show r.val * 1 + 0 = r.val
    omega
  refine (extractStridedSlice_apply _ _ _ (ix2 r (0 : Fin 1)) (ix2 r j) ?_).trans ?_
  · intro a
    match a with
    | ⟨0, _⟩ => show r.val = 0 + r.val; omega
    | ⟨1, _⟩ => show j.val = j.val + 0; omega
  unfold k0_pay4
  refine shapeCast_apply _ _ (ix2 r j) (ix3 (0 : Fin 1) r j) ?_
  rw [Shape.rowMajor_val_three, Shape.rowMajor_val_two]
  show (0 * 400 + r.val) * 3 + j.val = r.val * 3 + j.val
  omega

/-- A word whose signed value lies in [0, 8192) is the word of the natural number q < 8192 exactly when q is
    that value (kept inside the table). -/
theorem ofNat_eq_iff (w : BitVec 32) (hw : 0 ≤ w.toInt ∧ w.toInt < 8192) (q : Fin 8192) :
    BitVec.ofNat 32 q.val = w ↔ q = (⟨min w.toInt.toNat (8192 - 1), by omega⟩ : Fin 8192) := by
  have hq := q.isLt
  have hN : w.toNat < 2 ^ 32 := w.isLt
  have hI : w.toInt = (w.toNat : ℤ) := by
    have h := BitVec.toInt_eq_toNat_cond w
    by_cases hc : 2 * w.toNat < 2 ^ 32
    · rw [h, if_pos hc]
    · rw [h, if_neg hc] at hw
      omega
  constructor
  · intro h
    have h2 : w.toNat = q.val := by
      rw [← h, BitVec.toNat_ofNat]
      exact Nat.mod_eq_of_lt (by omega)
    apply Fin.ext
    show q.val = min w.toInt.toNat (8192 - 1)
    omega
  · intro h
    have h3 : q.val = min w.toInt.toNat (8192 - 1) := congrArg Fin.val h
    apply BitVec.eq_of_toNat_eq
    rw [BitVec.toNat_ofNat]
    have : q.val % 2 ^ 32 = q.val := Nat.mod_eq_of_lt (by omega)
    omega

/-- The one-hot row: at (r, q) it is 1 when q is the row the word at r names, else 0. -/
theorem onehot_apply (idx : IVec S400 32) (hi : S400x8192.Iotas .tc 32 [1]) (hc : S400.ShapeCasts S400x1)
    (hb : S400x1.Broadcasts S400x8192) (h1 : 1 < 32) (hbits : FTy.bits .bf16 < FTy.bits .f32) (r : Fin 400) (q : Fin 8192)
    (hr : 0 ≤ (idx (ix1 r)).toInt ∧ (idx (ix1 r)).toInt < 8192) :
    (truncf .bf16 (sitofp (F := Ideal) .f32 (extui 32 (cmpi .eq (iota .tc S400x8192 32 [1] hi)
        (broadcastTo S400x8192 (shapeCast S400x1 idx hc) hb)) h1)) hbits : FVec Ideal S400x8192 .bf16) (ix2 r q)
      = if q = (⟨min (idx (ix1 r)).toInt.toNat (8192 - 1), by omega⟩ : Fin 8192) then (1 : EReal) else 0 := by
  have e1 : iota .tc S400x8192 32 [1] hi (ix2 r q) = BitVec.ofNat 32 q.val :=
    iota_single_apply .tc S400x8192 32 1 hi (ix2 r q)
  have e2 : broadcastTo S400x8192 (shapeCast S400x1 idx hc) hb (ix2 r q) = idx (ix1 r) :=
    (Cert.Keepdims.broadcastTo_a1_ab_apply _ hb r q).trans (Cert.Keepdims.shapeCast_a_a1_apply idx hc r 0)
  show (((((IntOp.cmpi .eq (iota .tc S400x8192 32 [1] hi (ix2 r q))
      (broadcastTo S400x8192 (shapeCast S400x1 idx hc) hb (ix2 r q))).setWidth 32).toInt : ℤ) : ℝ) : EReal) = _
  rw [e1, e2]
  by_cases hq : q = (⟨min (idx (ix1 r)).toInt.toNat (8192 - 1), by omega⟩ : Fin 8192)
  · rw [if_pos hq]
    have hw : BitVec.ofNat 32 q.val = idx (ix1 r) := (ofNat_eq_iff _ hr q).2 hq
    have hc1 : IntOp.cmpi .eq (BitVec.ofNat 32 q.val) (idx (ix1 r)) = 1#1 := by
      rw [hw]; simp [IntOp.cmpi]
    rw [hc1]
    have : ((1#1 : BitVec 1).setWidth 32).toInt = 1 := by decide
    rw [this]
    simp
  · rw [if_neg hq]
    have hw : ¬ BitVec.ofNat 32 q.val = idx (ix1 r) := fun h => hq ((ofNat_eq_iff _ hr q).1 h)
    have hb0 : (BitVec.ofNat 32 q.val == idx (ix1 r)) = false := beq_eq_false_iff_ne.2 hw
    have hc0 : IntOp.cmpi .eq (BitVec.ofNat 32 q.val) (idx (ix1 r)) = 0#1 := by
      show BitVec.ofBool (BitVec.ofNat 32 q.val == idx (ix1 r)) = 0#1
      rw [hb0]
      rfl
    rw [hc0]
    have : ((0#1 : BitVec 1).setWidth 32).toInt = 0 := by decide
    rw [this]
    simp

/-- The product's dimension numbers are those of a plain [400, 8192] × [8192, 256] product. -/
theorem plain_dot : Cert.Lib.RowProducts.Plain dot_S400x8192_S8192x256_S400x256_1_0_0_1_n_n :=
  ⟨rfl, rfl, rfl, rfl, rfl, rfl⟩

/-- The table passes through its cast to the same shape unchanged. -/
theorem pay5_eq (x1 : Vec Ideal S8192x256 .bf16) : k0_pay5 (F := Ideal) x1 = x1 := shapeCast_self x1 _

/-- The one-hot rows multiplied into the table: row r of the product is the table's row that the word at r names,
    sum over q of e(r, q) * E (q, k) = E (word, k), every other term being 0 * E (q, k) = 0. -/
theorem gathered_row (idx : IVec S400 32) (x1 : Vec Ideal S8192x256 .bf16) (hi : S400x8192.Iotas .tc 32 [1])
    (hc : S400.ShapeCasts S400x1) (hb : S400x1.Broadcasts S400x8192) (h1 : 1 < 32) (hbits : FTy.bits .bf16 < FTy.bits .f32)
    (r : Fin 400) (k : Fin 256) (hr : 0 ≤ (idx (ix1 r)).toInt ∧ (idx (ix1 r)).toInt < 8192) :
    matmul (F := Ideal) dot_S400x8192_S8192x256_S400x256_1_0_0_1_n_n none
        (truncf .bf16 (sitofp (F := Ideal) .f32 (extui 32 (cmpi .eq (iota .tc S400x8192 32 [1] hi)
          (broadcastTo S400x8192 (shapeCast S400x1 idx hc) hb)) h1)) hbits : FVec Ideal S400x8192 .bf16)
        (k0_pay5 (F := Ideal) x1) (constant S400x256 .f32 0x00000000#32) (ix2 r k)
      = rowOf x1 (idx (ix1 r)) k := by
  refine (plain_dot.matmul_zero_apply none _ _ (ix2 r k)).trans ?_
  show ∑ q : Fin 8192, (truncf .bf16 (sitofp (F := Ideal) .f32 (extui 32 (cmpi .eq (iota .tc S400x8192 32 [1] hi)
          (broadcastTo S400x8192 (shapeCast S400x1 idx hc) hb)) h1)) hbits : FVec Ideal S400x8192 .bf16) (ix2 r q)
        * k0_pay5 (F := Ideal) x1 (ix2 q k) = _
  rw [Finset.sum_eq_single (⟨min (idx (ix1 r)).toInt.toNat (8192 - 1), by omega⟩ : Fin 8192)]
  · rw [onehot_apply idx hi hc hb h1 hbits r _ hr, if_pos rfl, one_mul, pay5_eq]
    rfl
  · intro q _ hq
    rw [onehot_apply idx hi hc hb h1 hbits r q hr, if_neg hq, zero_mul]
  · intro h
    exact absurd (Finset.mem_univ _) h

/-- The anchor rows: row r of the first product is the table's row named by T (0, r, 0). -/
theorem pay6_apply (x0 : Vec Ideal S1x400x3 .i32) (x1 : Vec Ideal S8192x256 .bf16)
    (hr : ∀ i, 0 ≤ (x0 i).toInt ∧ (x0 i).toInt < 8192) (r : Fin 400) (k : Fin 256) :
    k0_pay6 (F := Ideal) x0 x1 (ix2 r k) = rowOf x1 (x0 (ix3 (0 : Fin 1) r (0 : Fin 3))) k := by
  have hcol := col_apply x0 (0 : Fin 3) Facts₀.slices_S400x3_o0_0_S400x1 Facts₀.shapeCasts_S400x1_S400 r
  unfold k0_pay6
  refine (gathered_row _ x1 _ _ _ _ _ r k ?_).trans ?_
  · exact hcol ▸ hr _
  · exact congrArg (fun w => rowOf x1 w k) hcol

/-- The positive rows: row r of the second product is the table's row named by T (0, r, 1). -/
theorem pay7_apply (x0 : Vec Ideal S1x400x3 .i32) (x1 : Vec Ideal S8192x256 .bf16)
    (hr : ∀ i, 0 ≤ (x0 i).toInt ∧ (x0 i).toInt < 8192) (r : Fin 400) (k : Fin 256) :
    k0_pay7 (F := Ideal) x0 x1 (ix2 r k) = rowOf x1 (x0 (ix3 (0 : Fin 1) r (1 : Fin 3))) k := by
  have hcol := col_apply x0 (1 : Fin 3) Facts₀.slices_S400x3_o0_1_S400x1 Facts₀.shapeCasts_S400x1_S400 r
  unfold k0_pay7
  refine (gathered_row _ x1 _ _ _ _ _ r k ?_).trans ?_
  · exact hcol ▸ hr _
  · exact congrArg (fun w => rowOf x1 w k) hcol

/-- The negative rows: row r of the third product is the table's row named by T (0, r, 2). -/
theorem pay8_apply (x0 : Vec Ideal S1x400x3 .i32) (x1 : Vec Ideal S8192x256 .bf16)
    (hr : ∀ i, 0 ≤ (x0 i).toInt ∧ (x0 i).toInt < 8192) (r : Fin 400) (k : Fin 256) :
    k0_pay8 (F := Ideal) x0 x1 (ix2 r k) = rowOf x1 (x0 (ix3 (0 : Fin 1) r (2 : Fin 3))) k := by
  have hcol := col_apply x0 (2 : Fin 3) Facts₀.slices_S400x3_o0_2_S400x1 Facts₀.shapeCasts_S400x1_S400 r
  unfold k0_pay8
  refine (gathered_row _ x1 _ _ _ _ _ r k ?_).trans ?_
  · exact hcol ▸ hr _
  · exact congrArg (fun w => rowOf x1 w k) hcol

/-- A distance at row r: for two [400, 256] arrays whose rows at r are the rows a and b, the square root of the
    row sum of the squared differences is the distance of a and b. -/
theorem dist_apply (A B : FVec Ideal S400x256 .f32) (h : S400x256.Reduces [1] S400) (hφ : FKind.Formats .f32)
    (hacc : (0x00000000#32 : BitVec 32) = 0x00000000#32) (r : Fin 400) (a b : Fin 256 → EReal)
    (hA : ∀ k, A (ix2 r k) = a k) (hB : ∀ k, B (ix2 r k) = b k) :
    sqrt (multiReduction .add [1] S400 (mulf (subf A B) (subf A B)) 0x00000000#32 h hφ hacc) (ix1 r) = rowDist a b := by
  show Ideal.sqrt (multiReduction .add [1] S400 (mulf (subf A B) (subf A B)) 0x00000000#32 h hφ hacc (ix1 r)) = _
  refine congrArg Ideal.sqrt ?_
  refine (Cert.Keepdims.add_rows_f32 _ h hφ hacc r).trans ?_
  refine Finset.sum_congr rfl fun k _ => ?_
  show (A (ix2 r k) - B (ix2 r k)) * (A (ix2 r k) - B (ix2 r k)) = _
  rw [hA k, hB k]

/-- The distance of anchor and positive at row r. -/
theorem pay9_apply (x0 : Vec Ideal S1x400x3 .i32) (x1 : Vec Ideal S8192x256 .bf16)
    (hr : ∀ i, 0 ≤ (x0 i).toInt ∧ (x0 i).toInt < 8192) (r : Fin 400) :
    k0_pay9 (F := Ideal) x0 x1 (ix1 r)
      = rowDist (rowOf x1 (x0 (ix3 (0 : Fin 1) r (0 : Fin 3)))) (rowOf x1 (x0 (ix3 (0 : Fin 1) r (1 : Fin 3)))) := by
  unfold k0_pay9
  exact dist_apply _ _ _ _ _ r _ _ (pay6_apply x0 x1 hr r) (pay7_apply x0 x1 hr r)

/-- The distance of anchor and negative at row r. -/
theorem pay10_apply (x0 : Vec Ideal S1x400x3 .i32) (x1 : Vec Ideal S8192x256 .bf16)
    (hr : ∀ i, 0 ≤ (x0 i).toInt ∧ (x0 i).toInt < 8192) (r : Fin 400) :
    k0_pay10 (F := Ideal) x0 x1 (ix1 r)
      = rowDist (rowOf x1 (x0 (ix3 (0 : Fin 1) r (0 : Fin 3)))) (rowOf x1 (x0 (ix3 (0 : Fin 1) r (2 : Fin 3)))) := by
  unfold k0_pay10
  exact dist_apply _ _ _ _ _ r _ _ (pay6_apply x0 x1 hr r) (pay8_apply x0 x1 hr r)

/-- The hinge at row r: from the positive and negative rows and the two distances from the anchor, the third
    distance d(p, n), the smaller of d(a, n) and d(p, n) taken from d(a, p), the margin one added, and the larger of
    that and zero. -/
theorem loss_apply (P N : FVec Ideal S400x256 .f32) (dap dan : FVec Ideal S400 .f32) (h : S400x256.Reduces [1] S400)
    (hφ : FKind.Formats .f32) (hacc : (0x00000000#32 : BitVec 32) = 0x00000000#32) (r : Fin 400) (a p n : Fin 256 → EReal)
    (hP : ∀ k, P (ix2 r k) = p k) (hN : ∀ k, N (ix2 r k) = n k)
    (h1 : dap (ix1 r) = rowDist a p) (h2 : dan (ix1 r) = rowDist a n) :
    maximumf (addf (subf dap (minimumf dan
        (sqrt (multiReduction .add [1] S400 (mulf (subf P N) (subf P N)) 0x00000000#32 h hφ hacc))))
          (broadcast S400 (Scalar.ofBits (F := Ideal) .f32 0x3F800000#32)))
        (broadcast S400 (Scalar.ofBits (F := Ideal) .f32 0x00000000#32)) (ix1 r)
      = hinge a p n := by
  show max (dap (ix1 r) - min (dan (ix1 r))
        (sqrt (multiReduction .add [1] S400 (mulf (subf P N) (subf P N)) 0x00000000#32 h hφ hacc) (ix1 r))
      + Ideal.ofBits .f32 0x3F800000#32) (Ideal.ofBits .f32 0x00000000#32) = _
  rw [h1, h2, dist_apply P N h hφ hacc r p n hP hN]
  rfl

/-- The chunk's sum added to the running cell: the 400 losses laid out as one row, summed along it, the one entry
    taken out and added to the cell. -/
theorem tail_apply (L : FVec Ideal S400 .f32) (xs : Vec Ideal S1x1 .f32) (h1 : S400.ShapeCasts S1x400)
    (h2 : S1x400.Reduces [1] S1) (hφ : FKind.Formats .f32) (hacc : (0x00000000#32 : BitVec 32) = 0x00000000#32)
    (h3 : S1.ShapeCasts S1x1) (h4 : ∀ a, (![0, 0] : Fin 2 → ℕ) a < S1x1.size a) (h5 : S1x1.ShapeCasts S1x1) :
    shapeCast S1x1 (addf (F := Ideal) xs (broadcast S1x1 (extractAt ![0, 0]
        (shapeCast S1x1 (multiReduction .add [1] S1 (shapeCast S1x400 L h1) 0x00000000#32 h2 hφ hacc) h3) h4))) h5
        (ix2 (0 : Fin 1) (0 : Fin 1))
      = xs (ix2 (0 : Fin 1) (0 : Fin 1)) + ∑ r : Fin 400, L (ix1 r) := by
  rw [shapeCast_self]
  show xs (ix2 (0 : Fin 1) (0 : Fin 1)) + extractAt ![0, 0]
        (shapeCast S1x1 (multiReduction .add [1] S1 (shapeCast S1x400 L h1) 0x00000000#32 h2 hφ hacc) h3) h4 = _
  refine congrArg (xs (ix2 (0 : Fin 1) (0 : Fin 1)) + ·) ?_
  refine (Cert.Keepdims.extractAt_11 _ h4).trans ?_
  refine (Cert.Keepdims.shapeCast_a_a1_apply _ h3 (0 : Fin 1) (0 : Fin 1)).trans ?_
  refine (Cert.Keepdims.add_rows_f32 _ h2 hφ hacc (0 : Fin 1)).trans ?_
  refine Finset.sum_congr rfl fun r _ => ?_
  refine shapeCast_apply L h1 (ix2 (0 : Fin 1) r) (ix1 r) ?_
  rw [Shape.rowMajor_val_one, Shape.rowMajor_val_two]
  show r.val = 0 * 400 + r.val
  omega

/-- The body's store into the running cell, at its one index: the cell plus the chunk's 400 hinge losses. -/
theorem pay_acc (x0 : Vec Ideal S1x400x3 .i32) (x1 : Vec Ideal S8192x256 .bf16) (xs : Vec Ideal S1x1 .f32)
    (hr : ∀ i, 0 ≤ (x0 i).toInt ∧ (x0 i).toInt < 8192) :
    k0_pay1 (F := Ideal) (k0_pay7 x0 x1) (k0_pay8 x0 x1) (k0_pay9 x0 x1) (k0_pay10 x0 x1) xs (ValueIdx.ix2 (0 : Fin 1) (0 : Fin 1))
      = xs (ValueIdx.ix2 (0 : Fin 1) (0 : Fin 1))
        + ∑ r : Fin 400, Cert.Triplet.hinge (Cert.Triplet.rowOf x1 (x0 (ValueIdx.ix3 (0 : Fin 1) r (0 : Fin 3))))
            (Cert.Triplet.rowOf x1 (x0 (ValueIdx.ix3 (0 : Fin 1) r (1 : Fin 3)))) (Cert.Triplet.rowOf x1 (x0 (ValueIdx.ix3 (0 : Fin 1) r (2 : Fin 3)))) := by
  unfold k0_pay1
  refine (tail_apply _ xs _ _ _ _ _ _ _).trans ?_
  refine congrArg (xs (ix2 (0 : Fin 1) (0 : Fin 1)) + ·) (Finset.sum_congr rfl fun r _ => ?_)
  exact loss_apply _ _ _ _ _ _ _ r _ _ _ (pay7_apply x0 x1 hr r) (pay8_apply x0 x1 hr r) (pay9_apply x0 x1 hr r)
    (pay10_apply x0 x1 hr r)

end Cert.KernelIdeal.Pay

end
-- ==== Proof.LibBlockSum.lean ====
/-
  A sum over an initial segment of the naturals cut into consecutive blocks of one length: with N = T · L, the sum over
  n < N of g n is the sum over the blocks t < T of the sums over the places l < L of g (t · L + l). Over any commutative
  additive monoid: every n < T · L is t · L + l for exactly one pair (t, l) (division with remainder).
-/
import Mathlib.Logic.Equiv.Fin.Basic
import Mathlib.Data.Fintype.BigOperators
import Mathlib.Algebra.BigOperators.Group.Finset.Defs

namespace Cert.Lib

/-- The sum over `Fin N`, `N = T * L`, taken block by block: block `t` holds the indices `t * L + l` for `l < L`.
    The pairs (t, l) correspond one to one to the indices below `T * L` (`finProdFinEquiv`), and a sum over pairs is the
    iterated sum. -/
theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

/-- The same with a second, inner index carried along: the sum over n of the sums over j. -/
theorem sum_blocks₂ {M : Type*} [AddCommMonoid M] {T L N K : ℕ} (hN : T * L = N) (g : Fin K → Fin N → M)
    (hb : ∀ (t : Fin T) (l : Fin L), t.val * L + l.val < N) :
    ∑ t : Fin T, ∑ l : Fin L, ∑ j : Fin K, g j ⟨t.val * L + l.val, hb t l⟩ = ∑ n : Fin N, ∑ j : Fin K, g j n :=
  sum_blocks hN (fun n => ∑ j : Fin K, g j n) hb

end Cert.Lib
-- ==== Proof.SumHalves.lean ====
import Mathlib.Algebra.BigOperators.Fin
import Mathlib.Data.Fintype.BigOperators
import Idealize.ShloMosaic.Lib.ValueIdx
import proofs.«427542_j29171417874648_1_alg».proof.Proof.LibBlockSum

/-!
  The grid's sum is the sum over all triplets.

  The grid is 2 halves of 125 chunks of 400 triplets: place r of chunk c of half h is triplet
  h · 50000 + c · 400 + r. The 125 chunks of 400 tile the 50000 triplets of a half, and the 2 halves of
  50000 tile the 100000 triplets, so summing over halves, chunks and places meets every triplet once.
  The halves are indexed by the index set of a [2, 1, 1] array, which is in bijection with Fin 2
  through its first coordinate (the other two coordinates can only be 0).
-/

namespace Cert.Triplet

open Idealize.ShloMosaic Idealize.ShloMosaic.ValueIdx

/-- The index set of a [2, 1, 1] array is its first coordinate's range: the other two coordinates are 0. -/
def idxEquiv211 : (⟨3, ![2, 1, 1]⟩ : Shape).Idx ≃ Fin 2 where
  toFun i := i 0
  invFun h := ix3 h 0 0
  left_inv i := by
    funext a
    match a with
    | ⟨0, _⟩ => rfl
    | ⟨1, _⟩ =>
      have hlt : (i 1).val < 1 := (i 1).isLt
      exact Fin.ext (by show (0 : ℕ) = (i 1).val; omega)
    | ⟨2, _⟩ =>
      have hlt : (i 2).val < 1 := (i 2).isLt
      exact Fin.ext (by show (0 : ℕ) = (i 2).val; omega)
  right_inv _ := rfl

/-- The sum over the 2 halves, the 125 chunks of a half and the 400 places of a chunk, of the term at
    triplet h · 50000 + c · 400 + r, is the sum over all 100000 triplets. -/
theorem sum_halves {M : Type*} [AddCommMonoid M] (L : ℕ → M) :
    ∑ i : (⟨3, ![2, 1, 1]⟩ : Idealize.ShloMosaic.Shape).Idx, ∑ c ∈ Finset.range 125, ∑ r : Fin 400, L ((i 0).val * 50000 + c * 400 + r.val)
      = ∑ t : Fin 100000, L t.val := by
  -- one half: 125 chunks of 400 tile its 50000 triplets
  have inner : ∀ h : Fin 2, ∑ c ∈ Finset.range 125, ∑ r : Fin 400, L (h.val * 50000 + c * 400 + r.val)
      = ∑ m : Fin 50000, L (h.val * 50000 + m.val) := by
    intro h
    calc ∑ c ∈ Finset.range 125, ∑ r : Fin 400, L (h.val * 50000 + c * 400 + r.val)
        = ∑ c : Fin 125, ∑ r : Fin 400, L (h.val * 50000 + c.val * 400 + r.val) :=
          Finset.sum_range (fun c => ∑ r : Fin 400, L (h.val * 50000 + c * 400 + r.val))
      _ = ∑ c : Fin 125, ∑ r : Fin 400, L (h.val * 50000 + (c.val * 400 + r.val)) :=
          Finset.sum_congr rfl fun c _ => Finset.sum_congr rfl fun r _ => congrArg L (Nat.add_assoc _ _ _)
      _ = ∑ m : Fin 50000, L (h.val * 50000 + m.val) :=
          Cert.Lib.sum_blocks (T := 125) (L := 400) (by decide) (fun m : Fin 50000 => L (h.val * 50000 + m.val))
            (fun t l => by have := t.isLt; have := l.isLt; omega)
  calc ∑ i : (⟨3, ![2, 1, 1]⟩ : Shape).Idx, ∑ c ∈ Finset.range 125, ∑ r : Fin 400, L ((i 0).val * 50000 + c * 400 + r.val)
      = ∑ h : Fin 2, ∑ c ∈ Finset.range 125, ∑ r : Fin 400, L (h.val * 50000 + c * 400 + r.val) :=
        -- the halves, indexed by their first coordinate
        Fintype.sum_equiv idxEquiv211 _ _ (fun _ => rfl)
    _ = ∑ h : Fin 2, ∑ m : Fin 50000, L (h.val * 50000 + m.val) := Finset.sum_congr rfl fun h _ => inner h
    _ = ∑ t : Fin 100000, L t.val :=
        -- 2 halves of 50000 tile the 100000 triplets
        Cert.Lib.sum_blocks (T := 2) (L := 50000) (by decide) (fun t : Fin 100000 => L t.val)
          (fun t l => by have := t.isLt; have := l.isLt; omega)

end Cert.Triplet
-- ==== Proof.KernelValue.lean ====
/-
  The kernel's result at the extended reals is the mean triplet loss.

  At every point the table's block is the whole table (the change of format is the identity on extended reals) and row r
  of the triplet block at half h, chunk c is triplet h · 50000 + c · 400 + r of the [100000, 3] array, re-laid as
  [2, 50000, 3]. So one chunk adds the sum of its 400 losses to the accumulator, the accumulator after chunk c of half h
  is the sum of the chunk sums 0 … c, the output array's entry (h, 0, 0) is the sum of the half's 125 chunk sums, and the
  host's sum of the two entries, divided by 100000, is the mean over all 100000 triplets.
-/
import proofs.«427542_j29171417874648_1_alg».proof.Proof.KernelRun
import proofs.«427542_j29171417874648_1_alg».proof.Proof.Spec
import proofs.«427542_j29171417874648_1_alg».proof.Proof.KernelPayload
import proofs.«427542_j29171417874648_1_alg».proof.Proof.SumHalves
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Run Cert.Triplet Idealize.ShloMosaic.ValueIdx

variable (m : (ℓ : Loc nD τ sig) → Buf (Elt Ideal) ℓ) (ρ : Dev nD → PrngReg)

/-! ## The two inputs as the kernel finds them -/

/-- The table as the kernel finds it: the change of format is the identity on extended reals. -/
theorem V_table (c : Dev nD) : (V m c main_v0 : S8192x256.Idx → EReal) = fun y => m ((c : Thread nD τ).loc main_arg0) y := by
  show StableHlo.after hostOps0 (fun b => m (c, b)) (Proc.devRef .tc main_v0) = _
  after_results
  rfl

/-- The triplet array as the kernel finds it: the [100000, 3] array laid out as [2, 50000, 3]. -/
theorem V_trip (c : Dev nD) : (V m c main_v1 : S2x50000x3.Idx → BitVec 32)
    = shapeCast S2x50000x3 (m ((c : Thread nD τ).loc main_arg1)) shapeCasts_S100000x3_S2x50000x3 := by
  show StableHlo.after hostOps0 (fun b => m (c, b)) (Proc.devRef .tc main_v1) = _
  after_results
  rfl

theorem idx_fact0 : ∀ t : Fin cfg0.N, win0_0.index t (0 : Fin 3) = t.val / 125 ∧ win0_0.index t (1 : Fin 3) = t.val % 125 ∧ win0_0.index t (2 : Fin 3) = 0 :=
  (by decide +kernel : ∀ t : Fin grid0.N, _)

theorem idx_fact1 : ∀ t : Fin cfg0.N, win0_1.index t (0 : Fin 2) = 0 ∧ win0_1.index t (1 : Fin 2) = 0 :=
  (by decide +kernel : ∀ t : Fin grid0.N, _)

/-- At every point the table's block is the whole table. -/
theorem tbl_blk (c : Dev nD) (t : Fin cfg0.N) (y : S8192x256.Idx) :
    (iblk m c 1 t : Vec Ideal S8192x256 .bf16) y = m ((c : Thread nD τ).loc main_arg0) y := by
  have hi := idx_fact1 t
  unfold iblk
  rw [View.read_apply]
  show (V m c main_v0 : S8192x256.Idx → EReal) (((cfg0.win 1).blk t).view.emb y) = _
  rw [V_table]
  show m ((c : Thread nD τ).loc main_arg0) (((cfg0.win 1).blk t).view.emb y) = m ((c : Thread nD τ).loc main_arg0) y
  refine congrArg (m ((c : Thread nD τ).loc main_arg0)) (funext fun a => Fin.ext ?_)
  match a with
  | ⟨0, _⟩ => show win0_1.index t (0 : Fin 2) * 8192 + 1 * (y 0).val = (y 0).val; rw [hi.1]; omega
  | ⟨1, _⟩ => show win0_1.index t (1 : Fin 2) * 256 + 1 * (y 1).val = (y 1).val; rw [hi.2]; omega

/-- At point `t` (half `t / 125`, chunk `t % 125`) row `r` of the triplet block is triplet number
    (t / 125) · 50000 + (t % 125) · 400 + r. -/
theorem trip_blk (c : Dev nD) (t : Fin cfg0.N) (r : Fin 400) (j : Fin 3) (hn : t.val / 125 * 50000 + t.val % 125 * 400 + r.val < 100000) :
    (iblk m c 0 t : Vec Ideal S1x400x3 .i32) (ix3 (0 : Fin 1) r j)
      = m ((c : Thread nD τ).loc main_arg1) (ix2 (⟨t.val / 125 * 50000 + t.val % 125 * 400 + r.val, hn⟩ : Fin 100000) j) := by
  have hi := idx_fact0 t
  unfold iblk
  rw [View.read_apply]
  show (V m c main_v1 : S2x50000x3.Idx → BitVec 32) (((cfg0.win 0).blk t).view.emb (ix3 (0 : Fin 1) r j)) = _
  rw [V_trip]
  refine shapeCast_apply _ _ _ _ ?_
  show (Shape.rowMajor (⟨2, ![100000, 3]⟩ : Shape) (ix2 (⟨t.val / 125 * 50000 + t.val % 125 * 400 + r.val, hn⟩ : Fin 100000) j)).val
    = (Shape.rowMajor (⟨3, ![2, 50000, 3]⟩ : Shape) (((cfg0.win 0).blk t).view.emb (ix3 (0 : Fin 1) r j))).val
  rw [Shape.rowMajor_val_two, Shape.rowMajor_val_three]
  show (t.val / 125 * 50000 + t.val % 125 * 400 + r.val) * 3 + j.val
    = ((win0_0.index t (0 : Fin 3) * 1 + 1 * 0) * 50000 + (win0_0.index t (1 : Fin 3) * 400 + 1 * r.val)) * 3 + (win0_0.index t (2 : Fin 3) * 3 + 1 * j.val)
  rw [hi.1, hi.2.1, hi.2.2]
  ring

/-! ## One chunk, and the running sum of a half -/

/-- The sum of the 400 losses of chunk `c'` of half `h`: triplets h · 50000 + c' · 400 + r. -/
def chunkLoss (E : (⟨2, ![8192, 256]⟩ : Shape).Idx → EReal) (T : (⟨2, ![100000, 3]⟩ : Shape).Idx → BitVec 32) (h c' : ℕ) : EReal :=
  ∑ r : Fin 400, lossAt E T (h * 50000 + c' * 400 + r.val)

/-- Every word of a triplet block is a word of the triplet array, so it names a row of the table. -/
theorem blk_range (c : Dev nD) (t : Fin cfg0.N)
    (hr : ∀ i, 0 ≤ (m ((c : Thread nD τ).loc main_arg1) i).toInt ∧ (m ((c : Thread nD τ).loc main_arg1) i).toInt < 8192) :
    ∀ i, 0 ≤ ((iblk m c 0 t : Vec Ideal S1x400x3 .i32) i).toInt ∧ ((iblk m c 0 t : Vec Ideal S1x400x3 .i32) i).toInt < 8192 := by
  intro i
  have hN : cfg0.N = 250 := N_0
  have ht := t.isLt
  have h0 : (i 0).val < 1 := (i 0).isLt
  have h1 : (i 1).val < 400 := (i 1).isLt
  have hi : i = ix3 (0 : Fin 1) (⟨(i 1).val, h1⟩ : Fin 400) (⟨(i 2).val, (i 2).isLt⟩ : Fin 3) := by
    funext a; apply Fin.ext
    match a with
    | ⟨0, _⟩ => show (i 0).val = 0; omega
    | ⟨1, _⟩ => rfl
    | ⟨2, _⟩ => rfl
  rw [hi, trip_blk m c t _ _ (by dsimp only; omega)]
  exact hr _

/-- The zero block's one entry is zero. -/
theorem zero_at : (zeroAcc (F := Ideal)) (ix2 (0 : Fin 1) (0 : Fin 1)) = 0 := by
  unfold zeroAcc k0_pay3
  rw [shapeCast_self]
  exact Ideal.ofBits_zero_f32

/-- One chunk's update of an accumulator, at its one entry: the chunk's sum is added. -/
theorem step_at (c : Dev nD)
    (hr : ∀ i, 0 ≤ (m ((c : Thread nD τ).loc main_arg1) i).toInt ∧ (m ((c : Thread nD τ).loc main_arg1) i).toInt < 8192)
    (t : Fin cfg0.N) (acc : Vec Ideal S1x1 .f32) :
    step (iblk m c 0 t) (iblk m c 1 t) acc (ix2 (0 : Fin 1) (0 : Fin 1))
      = acc (ix2 (0 : Fin 1) (0 : Fin 1))
        + chunkLoss (m ((c : Thread nD τ).loc main_arg0)) (m ((c : Thread nD τ).loc main_arg1)) (t.val / 125) (t.val % 125) := by
  have hN : cfg0.N = 250 := N_0
  have ht := t.isLt
  refine (Cert.KernelIdeal.Pay.pay_acc (iblk m c 0 t) (iblk m c 1 t) acc (blk_range m c t hr)).trans ?_
  refine congrArg (acc (ix2 (0 : Fin 1) (0 : Fin 1)) + ·) (Finset.sum_congr rfl fun r _ => ?_)
  have hn : t.val / 125 * 50000 + t.val % 125 * 400 + r.val < 100000 := by have := r.isLt; omega
  have htbl : (iblk m c 1 t : Vec Ideal S8192x256 .bf16) = m ((c : Thread nD τ).loc main_arg0) := funext (tbl_blk m c t)
  rw [trip_blk m c t r 0 hn, trip_blk m c t r 1 hn, trip_blk m c t r 2 hn, htbl]
  unfold lossAt
  rw [dif_pos hn]

/-- The accumulator's one entry after the body at position `n`: the sum of the chunk sums of the half so far. -/
theorem acc_eq (c : Dev nD)
    (hr : ∀ i, 0 ≤ (m ((c : Thread nD τ).loc main_arg1) i).toInt ∧ (m ((c : Thread nD τ).loc main_arg1) i).toInt < 8192) :
    ∀ (n : ℕ) (h : n < cfg0.N), accAt m c n h (ix2 (0 : Fin 1) (0 : Fin 1))
      = ∑ c' ∈ Finset.range (n % 125 + 1),
          chunkLoss (m ((c : Thread nD τ).loc main_arg0)) (m ((c : Thread nD τ).loc main_arg1)) (n / 125) c'
  | 0, h => by
    rw [accAt, step_at m c hr ⟨0, h⟩, zero_at, zero_add]
    show chunkLoss _ _ (0 / 125) (0 % 125) = ∑ c' ∈ Finset.range (0 % 125 + 1), chunkLoss _ _ (0 / 125) c'
    rw [show (0 % 125 + 1) = 1 from rfl, Finset.sum_range_one]
  | n + 1, h => by
    have hN : cfg0.N = 250 := N_0
    rw [accAt]
    split
    · rename_i h0
      rw [step_at m c hr ⟨n + 1, h⟩, zero_at, zero_add]
      show chunkLoss _ _ ((n + 1) / 125) ((n + 1) % 125) = _
      rw [h0, show (0 + 1) = 1 from rfl, Finset.sum_range_one]
    · rename_i h0
      rw [step_at m c hr ⟨n + 1, h⟩, acc_eq c hr n (Nat.lt_of_succ_lt h)]
      show _ + chunkLoss _ _ ((n + 1) / 125) ((n + 1) % 125) = _
      have e1 : (n + 1) / 125 = n / 125 := by omega
      have e2 : (n + 1) % 125 = n % 125 + 1 := by omega
      rw [e1, e2, Finset.sum_range_succ _ (n % 125 + 1)]

/-- The copy to the output block keeps the one entry. -/
theorem pay2_at (v : Vec Ideal S1x1 .f32) :
    k0_pay2 (F := Ideal) v (ix3 (0 : Fin 1) (0 : Fin 1) (0 : Fin 1)) = v (ix2 (0 : Fin 1) (0 : Fin 1)) := by
  unfold k0_pay2
  refine shapeCast_apply _ _ _ _ ?_
  rw [Shape.rowMajor_val_two, Shape.rowMajor_val_three]
  rfl

/-- Entry (h, 0, 0) of the output array: the sum of the 125 chunk sums of half `h`. -/
theorem outArr_at (c : Dev nD)
    (hr : ∀ i, 0 ≤ (m ((c : Thread nD τ).loc main_arg1) i).toInt ∧ (m ((c : Thread nD τ).loc main_arg1) i).toInt < 8192)
    (i : S2x1x1.Idx) :
    outArr m c i = ∑ c' ∈ Finset.range 125,
      chunkLoss (m ((c : Thread nD τ).loc main_arg0)) (m ((c : Thread nD τ).loc main_arg1)) (i 0).val c' := by
  have h2 : (i 0).val < 2 := (i 0).isLt
  unfold outArr
  rw [pay2_at, acc_eq m c hr]
  have e1 : ((i 0).val * 125 + 124) / 125 = (i 0).val := by omega
  have e2 : ((i 0).val * 125 + 124) % 125 + 1 = 125 := by omega
  rw [e1, e2]

/-- The host operations after the kernel at the extended reals: the zero word plus the sum of the output array's
    entries, divided by the word 100000.0. -/
theorem tail_apply (o : S2x1x1.Idx → EReal) (j : S_.Idx) :
    tail (F := Ideal) o j
      = Ideal.div (Ideal.ofBits .f32 0x00000000#32 + ∑ i : S2x1x1.Idx, o i) (Ideal.ofBits .f32 0x47C35000#32) := by
  unfold tail
  show Ideal.div (Host.reduceAdd (F := Ideal) o (constant (F := Ideal) S_ .f32 0x00000000#32) reducesTo_S2x1x1_S_d0_1_2 h_S_ j) _ = _
  refine congrArg (fun s => Ideal.div s (Ideal.ofBits .f32 0x47C35000#32)) ?_
  simp only [Host.reduceAdd, Ideal.hostReduceAdd_def]
  exact Ideal.hostReduceAdd_total reducesTo_S2x1x1_S_d0_1_2 (fun b => b.elim0) o _ j

/-- THE KERNEL'S RESULT: the host operations after the kernel, applied to the output array, give the mean loss of the
    table and the triplet array: the two halves' sums of 125 chunk sums of 400 losses meet every triplet once. -/
theorem result_eq (c : Dev nD)
    (hr : ∀ i, 0 ≤ (m ((c : Thread nD τ).loc main_arg1) i).toInt ∧ (m ((c : Thread nD τ).loc main_arg1) i).toInt < 8192)
    (j : S_.Idx) :
    tail (outArr m c) j = meanLoss (m ((c : Thread nD τ).loc main_arg0)) (m ((c : Thread nD τ).loc main_arg1)) := by
  rw [tail_apply]
  unfold meanLoss
  refine congrArg (fun s => Ideal.div (Ideal.ofBits .f32 0x00000000#32 + s) (Ideal.ofBits .f32 0x47C35000#32)) ?_
  refine (Finset.sum_congr rfl fun i _ => outArr_at m c hr i).trans ?_
  unfold chunkLoss
  exact Cert.Triplet.sum_halves (lossAt (m ((c : Thread nD τ).loc main_arg0)) (m ((c : Thread nD τ).loc main_arg1)))

end Cert.KernelIdeal.Val

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.RefValue.lean ====
/-
  The reference program's result is the mean triplet loss of the specification.

  The reference takes the three columns of the triplet array, wraps each word as a negative index is wrapped
  (w + 8192 when w < 0, else w), gathers the three rows of the table, forms the three Euclidean distances, the hinge
  max (d(a, p) - min (d(a, n), d(p, n)) + 1, 0), sums the 100000 hinges from zero and divides by 100000. Under
  0 ≤ w < 8192 the wrap is the identity, the gather's signed and clamped read is the specification's row, and every
  later stage is the specification's formula read at an index.
-/
import proofs.«427542_j29171417874648_1_alg».proof.Proof.Gen.ReferenceIdeal.Read
import proofs.«427542_j29171417874648_1_alg».proof.Proof.Spec
import proofs.«427542_j29171417874648_1_alg».proof.Proof.LibGatherRows
import Idealize.ShloMosaic.Lib.ValueIdxRank1

noncomputable section

open scoped BigOperators

namespace Cert.ReferenceIdeal.RefValue

open Cert.ReferenceIdeal Cert.ReferenceIdeal.Gen Cert.ReferenceIdeal.Read Cert.Triplet
open Idealize.ShloMosaic Idealize.ShloMosaic.ValueIdx

/-! ## The index words -/

/-- The wrap of an index word that is not negative is the word itself. -/
theorem wrap_nonneg (w : BitVec 32) (h : 0 ≤ w.toInt) :
    Scalar.select (IntOp.cmpi .slt w 0#32) (IntOp.addi w 8192#32) w = w := by
  have h0 : (0#32 : BitVec 32).toInt = 0 := by decide
  have hc : IntOp.cmpi .slt w 0#32 = 0#1 :=
    ValueIdx.eq_zero_of_ne_one (fun h' => by have := IntOp.cmpi_slt.1 h'; rw [h0] at this; omega)
  rw [hc, ValueIdx.select_zero]

/-- Column 0 of the triplet array, flattened: entry t is the word at (t, 0). -/
theorem v1_at (x1 : (⟨S100000x3, .i32⟩ : BufTy).Contents (Elt Ideal)) (t : Fin 100000) :
    val_main_v1 (F := Ideal) x1 (ix1 t) = x1 (ix2 t (0 : Fin 3)) := by
  rw [val_main_v1_apply, val_main_v0_apply]
  refine congrArg x1 (funext fun a => ?_)
  match a with
  | ⟨0, _⟩ => exact Fin.ext (Nat.div_one _)
  | ⟨1, _⟩ => exact Fin.ext rfl

/-- Column 1 of the triplet array, flattened. -/
theorem v10_at (x1 : (⟨S100000x3, .i32⟩ : BufTy).Contents (Elt Ideal)) (t : Fin 100000) :
    val_main_v10 (F := Ideal) x1 (ix1 t) = x1 (ix2 t (1 : Fin 3)) := by
  rw [val_main_v10_apply, val_main_v9_apply]
  refine congrArg x1 (funext fun a => ?_)
  match a with
  | ⟨0, _⟩ => exact Fin.ext (Nat.div_one _)
  | ⟨1, _⟩ => exact Fin.ext rfl

/-- Column 2 of the triplet array, flattened. -/
theorem v19_at (x1 : (⟨S100000x3, .i32⟩ : BufTy).Contents (Elt Ideal)) (t : Fin 100000) :
    val_main_v19 (F := Ideal) x1 (ix1 t) = x1 (ix2 t (2 : Fin 3)) := by
  rw [val_main_v19_apply, val_main_v18_apply]
  refine congrArg x1 (funext fun a => ?_)
  match a with
  | ⟨0, _⟩ => exact Fin.ext (Nat.div_one _)
  | ⟨1, _⟩ => exact Fin.ext rfl

/-- The position column of a [100000 × 1] array read at (t, 0) is the flat array's entry t. -/
theorem idx7_at (t : Fin 100000) : idx_main_v7 (ix2 t (0 : Fin 1)) = ix1 t := by
  funext a; match a with | ⟨0, _⟩ => exact Fin.ext rfl

/-- The wrapped anchor column at (t, 0) is the anchor word, when that word is not negative. -/
theorem v7_at (x1 : (⟨S100000x3, .i32⟩ : BufTy).Contents (Elt Ideal)) (t : Fin 100000)
    (h : 0 ≤ (x1 (ix2 t (0 : Fin 3))).toInt) :
    val_main_v7 (F := Ideal) x1 (ix2 t (0 : Fin 1)) = x1 (ix2 t (0 : Fin 3)) := by
  rw [val_main_v7_apply, idx7_at, val_main_v6_apply, val_main_v3_apply, val_main_v5_apply, v1_at, val_main_v2_apply,
    val_main_v4_apply]
  exact wrap_nonneg _ h

/-- The wrapped positive column at (t, 0) is the positive word, when that word is not negative. -/
theorem v16_at (x1 : (⟨S100000x3, .i32⟩ : BufTy).Contents (Elt Ideal)) (t : Fin 100000)
    (h : 0 ≤ (x1 (ix2 t (1 : Fin 3))).toInt) :
    val_main_v16 (F := Ideal) x1 (ix2 t (0 : Fin 1)) = x1 (ix2 t (1 : Fin 3)) := by
  rw [val_main_v16_apply, show idx_main_v16 (ix2 t (0 : Fin 1)) = ix1 t from idx7_at t, val_main_v15_apply,
    val_main_v12_apply, val_main_v14_apply, v10_at, val_main_v11_apply, val_main_v13_apply]
  exact wrap_nonneg _ h

/-- The wrapped negative column at (t, 0) is the negative word, when that word is not negative. -/
theorem v25_at (x1 : (⟨S100000x3, .i32⟩ : BufTy).Contents (Elt Ideal)) (t : Fin 100000)
    (h : 0 ≤ (x1 (ix2 t (2 : Fin 3))).toInt) :
    val_main_v25 (F := Ideal) x1 (ix2 t (0 : Fin 1)) = x1 (ix2 t (2 : Fin 3)) := by
  rw [val_main_v25_apply, show idx_main_v25 (ix2 t (0 : Fin 1)) = ix1 t from idx7_at t, val_main_v24_apply,
    val_main_v21_apply, val_main_v23_apply, v19_at, val_main_v20_apply, val_main_v22_apply]
  exact wrap_nonneg _ h

/-! ## The three gathered rows -/

/-- The anchor rows: entry (t, k) of the first gather is entry k of the row the anchor word names. -/
theorem v8_at (x0 : (⟨S8192x256, .f32⟩ : BufTy).Contents (Elt Ideal)) (x1 : (⟨S100000x3, .i32⟩ : BufTy).Contents (Elt Ideal))
    (t : Fin 100000) (k : Fin 256) (h : 0 ≤ (x1 (ix2 t (0 : Fin 3))).toInt) :
    val_main_v8 (F := Ideal) x0 x1 (ix2 t k) = rowOf x0 (x1 (ix2 t (0 : Fin 3))) k := by
  unfold val_main_v8
  refine (Cert.Lib.gather_rows gather_S8192x256_S100000x1_S100000x256_1_0_n_n_0_1_1256 rfl rfl rfl rfl rfl x0
    (val_main_v7 (F := Ideal) x1) t k (by decide)).trans ?_
  unfold rowOf
  refine congrArg x0 (congrArg (fun r : Fin 8192 => ix2 r k) (Fin.ext ?_))
  show min (val_main_v7 (F := Ideal) x1 (ix2 t (0 : Fin 1))).toInt.toNat (8192 - 1)
    = min (x1 (ix2 t (0 : Fin 3))).toInt.toNat (8192 - 1)
  rw [v7_at x1 t h]

/-- The positive rows. -/
theorem v17_at (x0 : (⟨S8192x256, .f32⟩ : BufTy).Contents (Elt Ideal)) (x1 : (⟨S100000x3, .i32⟩ : BufTy).Contents (Elt Ideal))
    (t : Fin 100000) (k : Fin 256) (h : 0 ≤ (x1 (ix2 t (1 : Fin 3))).toInt) :
    val_main_v17 (F := Ideal) x0 x1 (ix2 t k) = rowOf x0 (x1 (ix2 t (1 : Fin 3))) k := by
  unfold val_main_v17
  refine (Cert.Lib.gather_rows gather_S8192x256_S100000x1_S100000x256_1_0_n_n_0_1_1256 rfl rfl rfl rfl rfl x0
    (val_main_v16 (F := Ideal) x1) t k (by decide)).trans ?_
  unfold rowOf
  refine congrArg x0 (congrArg (fun r : Fin 8192 => ix2 r k) (Fin.ext ?_))
  show min (val_main_v16 (F := Ideal) x1 (ix2 t (0 : Fin 1))).toInt.toNat (8192 - 1)
    = min (x1 (ix2 t (1 : Fin 3))).toInt.toNat (8192 - 1)
  rw [v16_at x1 t h]

/-- The negative rows. -/
theorem v26_at (x0 : (⟨S8192x256, .f32⟩ : BufTy).Contents (Elt Ideal)) (x1 : (⟨S100000x3, .i32⟩ : BufTy).Contents (Elt Ideal))
    (t : Fin 100000) (k : Fin 256) (h : 0 ≤ (x1 (ix2 t (2 : Fin 3))).toInt) :
    val_main_v26 (F := Ideal) x0 x1 (ix2 t k) = rowOf x0 (x1 (ix2 t (2 : Fin 3))) k := by
  unfold val_main_v26
  refine (Cert.Lib.gather_rows gather_S8192x256_S100000x1_S100000x256_1_0_n_n_0_1_1256 rfl rfl rfl rfl rfl x0
    (val_main_v25 (F := Ideal) x1) t k (by decide)).trans ?_
  unfold rowOf
  refine congrArg x0 (congrArg (fun r : Fin 8192 => ix2 r k) (Fin.ext ?_))
  show min (val_main_v25 (F := Ideal) x1 (ix2 t (0 : Fin 1))).toInt.toNat (8192 - 1)
    = min (x1 (ix2 t (2 : Fin 3))).toInt.toNat (8192 - 1)
  rw [v25_at x1 t h]

/-! ## The three distances -/

/-- The summation index of a row sum: position t, entry k. -/
theorem idx29_at (t : Fin 100000) (k : Fin 256) : idx_main_v29 (ix1 t) k = ix2 t k := by
  funext a; match a with | ⟨0, _⟩ => exact Fin.ext rfl | ⟨1, _⟩ => exact Fin.ext rfl

/-- d(anchor, positive) of triplet t. -/
theorem v30_at (x0 : (⟨S8192x256, .f32⟩ : BufTy).Contents (Elt Ideal)) (x1 : (⟨S100000x3, .i32⟩ : BufTy).Contents (Elt Ideal))
    (t : Fin 100000) (h0 : 0 ≤ (x1 (ix2 t (0 : Fin 3))).toInt) (h1 : 0 ≤ (x1 (ix2 t (1 : Fin 3))).toInt) :
    val_main_v30 (F := Ideal) x0 x1 (ix1 t)
      = rowDist (rowOf x0 (x1 (ix2 t (0 : Fin 3)))) (rowOf x0 (x1 (ix2 t (1 : Fin 3)))) := by
  rw [val_main_v30_apply, val_main_v29_apply, val_main_cst_apply]
  show Ideal.sqrt (Ideal.ofBits .f32 0x00000000#32 + _) = Ideal.sqrt _
  rw [Ideal.ofBits_zero_f32, zero_add]
  refine congrArg Ideal.sqrt (Finset.sum_congr rfl fun k _ => ?_)
  rw [idx29_at, val_main_v28_apply, val_main_v27_apply, v8_at x0 x1 t k h0, v17_at x0 x1 t k h1]
  rfl

/-- d(anchor, negative) of triplet t. -/
theorem v34_at (x0 : (⟨S8192x256, .f32⟩ : BufTy).Contents (Elt Ideal)) (x1 : (⟨S100000x3, .i32⟩ : BufTy).Contents (Elt Ideal))
    (t : Fin 100000) (h0 : 0 ≤ (x1 (ix2 t (0 : Fin 3))).toInt) (h2 : 0 ≤ (x1 (ix2 t (2 : Fin 3))).toInt) :
    val_main_v34 (F := Ideal) x0 x1 (ix1 t)
      = rowDist (rowOf x0 (x1 (ix2 t (0 : Fin 3)))) (rowOf x0 (x1 (ix2 t (2 : Fin 3)))) := by
  rw [val_main_v34_apply, val_main_v33_apply, val_main_cst_5_apply]
  show Ideal.sqrt (Ideal.ofBits .f32 0x00000000#32 + _) = Ideal.sqrt _
  rw [Ideal.ofBits_zero_f32, zero_add]
  refine congrArg Ideal.sqrt (Finset.sum_congr rfl fun k _ => ?_)
  rw [show idx_main_v33 (ix1 t) k = ix2 t k from idx29_at t k, val_main_v32_apply, val_main_v31_apply,
    v8_at x0 x1 t k h0, v26_at x0 x1 t k h2]
  rfl

/-- d(positive, negative) of triplet t. -/
theorem v38_at (x0 : (⟨S8192x256, .f32⟩ : BufTy).Contents (Elt Ideal)) (x1 : (⟨S100000x3, .i32⟩ : BufTy).Contents (Elt Ideal))
    (t : Fin 100000) (h1 : 0 ≤ (x1 (ix2 t (1 : Fin 3))).toInt) (h2 : 0 ≤ (x1 (ix2 t (2 : Fin 3))).toInt) :
    val_main_v38 (F := Ideal) x0 x1 (ix1 t)
      = rowDist (rowOf x0 (x1 (ix2 t (1 : Fin 3)))) (rowOf x0 (x1 (ix2 t (2 : Fin 3)))) := by
  rw [val_main_v38_apply, val_main_v37_apply, val_main_cst_6_apply]
  show Ideal.sqrt (Ideal.ofBits .f32 0x00000000#32 + _) = Ideal.sqrt _
  rw [Ideal.ofBits_zero_f32, zero_add]
  refine congrArg Ideal.sqrt (Finset.sum_congr rfl fun k _ => ?_)
  rw [show idx_main_v37 (ix1 t) k = ix2 t k from idx29_at t k, val_main_v36_apply, val_main_v35_apply,
    v17_at x0 x1 t k h1, v26_at x0 x1 t k h2]
  rfl

/-! ## The hinge, the sum and the mean -/

/-- The hinge of triplet t is the specification's loss of triplet t. -/
theorem v43_at (x0 : (⟨S8192x256, .f32⟩ : BufTy).Contents (Elt Ideal)) (x1 : (⟨S100000x3, .i32⟩ : BufTy).Contents (Elt Ideal))
    (hr : ∀ i, 0 ≤ (x1 i).toInt ∧ (x1 i).toInt < 8192) (t : Fin 100000) :
    val_main_v43 (F := Ideal) x0 x1 (ix1 t) = lossAt x0 x1 t.val := by
  rw [val_main_v43_apply, val_main_v42_apply, val_main_v40_apply, val_main_v39_apply,
    v30_at x0 x1 t (hr _).1 (hr _).1, v34_at x0 x1 t (hr _).1 (hr _).1, v38_at x0 x1 t (hr _).1 (hr _).1,
    val_main_v41_apply, val_main_call0_v0_apply]
  unfold lossAt
  rw [dif_pos t.isLt]
  rfl

/-- The reference's result is the mean loss. -/
theorem ref_eq (x0 : (⟨S8192x256, .f32⟩ : BufTy).Contents (Elt Ideal)) (x1 : (⟨S100000x3, .i32⟩ : BufTy).Contents (Elt Ideal))
    (hr : ∀ i, 0 ≤ (x1 i).toInt ∧ (x1 i).toInt < 8192) (i : S_.Idx) :
    Read.val_main_v45 (F := Ideal) x0 x1 i = Cert.Triplet.meanLoss x0 x1 := by
  rw [val_main_v45_apply, val_main_v44_apply]
  show Ideal.div (Ideal.ofBits .f32 0x00000000#32 + ∑ j : S100000.Idx, val_main_v43 (F := Ideal) x0 x1 j)
    (Ideal.ofBits .f32 0x47C35000#32) = _
  unfold meanLoss
  refine congrArg (fun s => Ideal.div (Ideal.ofBits .f32 0x00000000#32 + s) (Ideal.ofBits .f32 0x47C35000#32)) ?_
  refine (Equiv.sum_comp (idxEquiv1 (n := 100000)).symm (val_main_v43 (F := Ideal) x0 x1)).symm.trans ?_
  exact Finset.sum_congr rfl fun t _ => v43_at x0 x1 hr t

end Cert.ReferenceIdeal.RefValue

end
-- ==== Proof.PreRange.lean ====
import proofs.«427542_j29171417874648_1_alg».proof.Pre_finite_inputs
import proofs.«427542_j29171417874648_1_alg».proof.Proof.Gen.Pre_finite_inputs
import Idealize.ShloMosaic.Lib.ReduceAll
import Idealize.ShloMosaic.Lib.StableHlo.Predicate
import Idealize.ShloMosaic.Lib.ValueIdx

/-!
  The precondition, read back at the index table.

  The precondition is the conjunction, as one-bit words, of three `all`s: every embedding entry is
  finite, every triplet entry is at least 0, every triplet entry is below 8192. Each `all` is a
  reduction by `and` over both axes starting from 1, so the conjunction being 1 makes every
  compared element 1; a signed comparison word being 1 says the order relation of the signed values.
  Hence every triplet entry, read signed, lies in [0, 8192): it is a row number of the table.
-/

namespace Cert.Pre_finite_inputs.Range

open Idealize.ShloMosaic

/-- The scalar shape has exactly one index. -/
instance : Subsingleton Cert.Pre_finite_inputs.S_.Idx := ⟨fun a b => funext fun d => d.elim0⟩

/-- If the precondition holds (its one-bit result is 1), every triplet entry, read as a signed word,
    is at least 0 and below 8192. -/
theorem range_of_pre {F : FTy → Type} [FloatOps F] [Cert.Pre_finite_inputs.Facts]
    (a0 : FVec F Cert.Pre_finite_inputs.S8192x256 .f32) (a1 : IVec Cert.Pre_finite_inputs.S100000x3 32)
    (h : Cert.Pre_finite_inputs.fn (F := F) a0 a1 = fun _ => 1#1) :
    ∀ i, 0 ≤ (a1 i).toInt ∧ (a1 i).toInt < 8192 := by
  -- the result word at the scalar shape's one index
  have h0 := congrFun h ValueIdx.ix0
  dsimp only [Cert.Pre_finite_inputs.fn] at h0
  -- the outer conjunction: (finite ∧ nonnegative) ∧ below 8192
  obtain ⟨h12, h3⟩ := IntOp.andi_eq_one.1 h0
  obtain ⟨_, h2⟩ := IntOp.andi_eq_one.1 h12
  intro i
  -- each `all` gives its compared element at i
  have hge := Host.reduce_andi_all _ _ _ _ _ h2 i
  have hlt := Host.reduce_andi_all _ _ _ _ _ h3 i
  -- a signed comparison word that is 1 is the order of the signed values
  have hge' : (0#32 : BitVec 32).toInt ≤ (a1 i).toInt := IntOp.cmpi_sge.1 hge
  have hlt' : (a1 i).toInt < (8192#32 : BitVec 32).toInt := IntOp.cmpi_slt.1 hlt
  have e0 : (0#32 : BitVec 32).toInt = 0 := by decide
  have e1 : (8192#32 : BitVec 32).toInt = 8192 := by decide
  rw [e0] at hge'
  rw [e1] at hlt'
  exact ⟨hge', hlt'⟩

end Cert.Pre_finite_inputs.Range
-- ==== Proof.lean ====
/-
  The mean online triplet loss: a kernel that gathers rows by one-hot products against a jnp reference that indexes.

  Inputs: a table of 8192 rows of 256 floats and 100000 triplets (anchor, positive, negative) of row numbers, each with
  0 ≤ number < 8192 (the precondition). For two rows x, y let d(x, y) = sqrt (∑ₖ (x k − y k)²); a triplet's loss is
  max (d(a, p) − min (d(a, n), d(p, n)) + 1, 0); the result is the sum of all losses divided by 100000 (and the count).

  The reference wraps each number as a negative index is wrapped (the identity on numbers that are not negative), takes
  the rows, and reduces. The kernel walks a grid of 2 halves × 125 chunks of 400 triplets; it takes a row as the product
  of a one-hot row with the whole table — over the extended reals the sum ∑_q [q = number] · table (q, k) is
  table (number, k), zero times anything being zero — adds each chunk's 400 losses to a running sum per half, and the
  host adds the two halves and divides. The two results agree because addition of extended reals is commutative and
  associative and the halves, chunks and places meet every triplet exactly once; finiteness of the table is not used.
-/
import proofs.«427542_j29171417874648_1_alg».proof.Defs
import proofs.«427542_j29171417874648_1_alg».proof.Proof.Gen.Kernel
import proofs.«427542_j29171417874648_1_alg».proof.Proof.Gen.Kernel.Skeleton
import proofs.«427542_j29171417874648_1_alg».proof.Proof.Gen.Kernel.Launch
import proofs.«427542_j29171417874648_1_alg».proof.Proof.Gen.Kernel.Points
import proofs.«427542_j29171417874648_1_alg».proof.Proof.Gen.Kernel.Frame
import proofs.«427542_j29171417874648_1_alg».proof.Proof.Gen.KernelIdeal
import proofs.«427542_j29171417874648_1_alg».proof.Proof.Gen.KernelIdeal.Skeleton
import proofs.«427542_j29171417874648_1_alg».proof.Proof.Gen.KernelIdeal.Launch
import proofs.«427542_j29171417874648_1_alg».proof.Proof.Gen.KernelIdeal.Points
import proofs.«427542_j29171417874648_1_alg».proof.Proof.Gen.KernelIdeal.Frame
import proofs.«427542_j29171417874648_1_alg».proof.Proof.Gen.ReferenceIdeal
import proofs.«427542_j29171417874648_1_alg».proof.Proof.Gen.ReferenceIdeal.Run
import proofs.«427542_j29171417874648_1_alg».proof.Proof.Gen.ReferenceIdeal.Read
import proofs.«427542_j29171417874648_1_alg».proof.Proof.Gen.Pre_finite_inputs
import proofs.«427542_j29171417874648_1_alg».proof.Proof.KernelValue
import proofs.«427542_j29171417874648_1_alg».proof.Proof.RefValue
import proofs.«427542_j29171417874648_1_alg».proof.Proof.PreRange
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and keeps its arguments: its run, with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Nothing of the kernel was rewritten for the reading at the extended reals. -/
theorem preserves : Cert.preserves_Kernel_KernelIdeal := trivial

/-- Both programs end with the mean loss of the table and the triplets, and with the count 100000: the precondition
    makes every triplet entry a row number, under which each side's result is the specification's mean loss. -/
theorem algebraic : Cert.algebraic_KernelIdeal_ReferenceIdeal := by
  intro m ρ m' ρ' hpre hagree
  refine ⟨fun c => Cert.KernelIdeal.Run.tail (Cert.KernelIdeal.Run.outArr m c),
    fun _ => constantI Cert.KernelIdeal.S_ 32 100000#32, Cert.KernelIdeal.Run.run (F := Ideal) m ρ, ?_⟩
  refine (θ_run Cert.ReferenceIdeal.defs _ _).mono (fun _ h c => ⟨(h c).1.trans ?_, (h c).2.1, (h c).2.2.1, (h c).2.2.2⟩)
    (Cert.ReferenceIdeal.Value.run (F := Ideal) m' ρ')
  have hr := Cert.Pre_finite_inputs.Range.range_of_pre (F := Ideal) _ _ (hpre c)
  rw [Cert.ReferenceIdeal.Read.val_main_v45_eq, (hagree c).1, (hagree c).2]
  funext j
  exact (Cert.ReferenceIdeal.RefValue.ref_eq _ _ hr j).trans (Cert.KernelIdeal.Val.result_eq m c hr j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
